-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x8192x64 : Shape := ⟨4, ![8, 8, 8192, 64]⟩
abbrev S8x64x256 : Shape := ⟨3, ![8, 64, 256]⟩
abbrev S8x256x64 : Shape := ⟨3, ![8, 256, 64]⟩
abbrev S_ : Shape := ⟨0, ![]⟩

class Facts : Prop where
  bcast_S_S8x8x8192x64 : S_.BroadcastsInDim S8x8x8192x64 (![] : Fin 0 → Fin S8x8x8192x64.rank)
  reducesTo_S8x8x8192x64_S_d0_1_2_3 : S8x8x8192x64.ReducesTo [0, 1, 2, 3] S_
  h_S_ : 0 < S_.numel
  bcast_S_S8x64x256 : S_.BroadcastsInDim S8x64x256 (![] : Fin 0 → Fin S8x64x256.rank)
  reducesTo_S8x64x256_S_d0_1_2 : S8x64x256.ReducesTo [0, 1, 2] S_
  bcast_S_S8x256x64 : S_.BroadcastsInDim S8x256x64 (![] : Fin 0 → Fin S8x256x64.rank)
  reducesTo_S8x256x64_S_d0_1_2 : S8x256x64.ReducesTo [0, 1, 2] S_

variable [Facts]

def fn {F : FTy → Type} [FloatOps F] (main_arg0 : FVec F S8x8x8192x64 .f32) (main_arg1 : FVec F S8x64x256 .f32) (main_arg2 : FVec F S8x256x64 .f32) : IVec S_ 1 :=
  let main_v0 : FVec F S8x8x8192x64 .f32 := Host.absf main_arg0
  let main_cst : FVec F S_ .f32 := constant S_ .f32 0x7F800000#32
  let main_v1 : FVec F S8x8x8192x64 .f32 := broadcastInDim S8x8x8192x64 ![] bcast_S_S8x8x8192x64 main_cst
  let main_v2 : IVec S8x8x8192x64 1 := cmpf .olt main_v0 main_v1
  let main_c : IVec S_ 1 := constantI S_ 1 1#1
  let main_v3 : IVec S_ 1 := (fun x v => Host.reduce IntOp.andi x v reducesTo_S8x8x8192x64_S_d0_1_2_3 h_S_) main_v2 main_c
  let main_v4 : FVec F S8x64x256 .f32 := Host.absf main_arg1
  let main_cst_0 : FVec F S_ .f32 := constant S_ .f32 0x7F800000#32
  let main_v5 : FVec F S8x64x256 .f32 := broadcastInDim S8x64x256 ![] bcast_S_S8x64x256 main_cst_0
  let main_v6 : IVec S8x64x256 1 := cmpf .olt main_v4 main_v5
  let main_c_1 : IVec S_ 1 := constantI S_ 1 1#1
  let main_v7 : IVec S_ 1 := (fun x v => Host.reduce IntOp.andi x v reducesTo_S8x64x256_S_d0_1_2 h_S_) main_v6 main_c_1
  let main_v8 : IVec S_ 1 := andi main_v3 main_v7
  let main_v9 : FVec F S8x256x64 .f32 := Host.absf main_arg2
  let main_cst_2 : FVec F S_ .f32 := constant S_ .f32 0x7F800000#32
  let main_v10 : FVec F S8x256x64 .f32 := broadcastInDim S8x256x64 ![] bcast_S_S8x256x64 main_cst_2
  let main_v11 : IVec S8x256x64 1 := cmpf .olt main_v9 main_v10
  let main_c_3 : IVec S_ 1 := constantI S_ 1 1#1
  let main_v12 : IVec S_ 1 := (fun x v => Host.reduce IntOp.andi x v reducesTo_S8x256x64_S_d0_1_2 h_S_) main_v11 main_c_3
  let main_v13 : IVec S_ 1 := andi main_v8 main_v12
  main_v13
-- ==== Kernel.lean ====
abbrev S8x8x8192x64 : Shape := ⟨4, ![8, 8, 8192, 64]⟩
abbrev S8x64x256 : Shape := ⟨3, ![8, 64, 256]⟩
abbrev S8x256x64 : Shape := ⟨3, ![8, 256, 64]⟩
abbrev S8x65536x64 : Shape := ⟨3, ![8, 65536, 64]⟩
abbrev S1x4096x64 : Shape := ⟨3, ![1, 4096, 64]⟩
abbrev S1x64x256 : Shape := ⟨3, ![1, 64, 256]⟩
abbrev S1x256x64 : Shape := ⟨3, ![1, 256, 64]⟩
abbrev S4096x64 : Shape := ⟨2, ![4096, 64]⟩
abbrev S64x256 : Shape := ⟨2, ![64, 256]⟩
abbrev S4096x256 : Shape := ⟨2, ![4096, 256]⟩
abbrev S256x64 : Shape := ⟨2, ![256, 64]⟩

abbrev nBuf : Space → Nat
  | .hbm => 6
  | .vmem => 8
  | .smem => 0
  | _ => 0

abbrev bufTy : (tb : Table) → Fin (tcTables nBuf tb) → BufTy
  | .hbm, ⟨0, _⟩ => ⟨S8x8x8192x64, .f32⟩
  | .hbm, ⟨1, _⟩ => ⟨S8x64x256, .f32⟩
  | .hbm, ⟨2, _⟩ => ⟨S8x256x64, .f32⟩
  | .hbm, ⟨3, _⟩ => ⟨S8x65536x64, .f32⟩
  | .hbm, ⟨4, _⟩ => ⟨S8x65536x64, .f32⟩
  | .hbm, ⟨5, _⟩ => ⟨S8x8x8192x64, .f32⟩
  | .local _ .vmem, ⟨0, _⟩ => ⟨S1x4096x64, .f32⟩
  | .local _ .vmem, ⟨1, _⟩ => ⟨S1x4096x64, .f32⟩
  | .local _ .vmem, ⟨2, _⟩ => ⟨S1x64x256, .f32⟩
  | .local _ .vmem, ⟨3, _⟩ => ⟨S1x64x256, .f32⟩
  | .local _ .vmem, ⟨4, _⟩ => ⟨S1x256x64, .f32⟩
  | .local _ .vmem, ⟨5, _⟩ => ⟨S1x256x64, .f32⟩
  | .local _ .vmem, ⟨6, _⟩ => ⟨S1x4096x64, .f32⟩
  | .local _ .vmem, ⟨7, _⟩ => ⟨S1x4096x64, .f32⟩
  | _, _ => ⟨S8x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x8x8192x64_S8x65536x64 : S8x8x8192x64.ShapeCasts S8x65536x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S4096x64_S1x4096x64 : S4096x64.ShapeCasts S1x4096x64
  shapeCasts_S8x65536x64_S8x8x8192x64 : S8x65536x64.ShapeCasts S8x8x8192x64
  dot_S4096x64_S64x256_S4096x256_1_0_0_1_n_n_wf : DotDims.WF S4096x64 S64x256 S4096x256 [1] [0] [0] [1] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S8x65536x64.size a
  hwx0_0 : ∀ i : grid0.Coords, EltTy.bits .f32 = 32 ∨ (Rect.block (s := S8x65536x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S8x64x256.size a
  hwx0_1 : ∀ i : grid0.Coords, EltTy.bits .f32 = 32 ∨ (Rect.block (s := S8x64x256) S1x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S8x256x64.size a
  hwx0_2 : ∀ i : grid0.Coords, EltTy.bits .f32 = 32 ∨ (Rect.block (s := S8x256x64) S1x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S8x65536x64.size a
  hwx0_3 : ∀ i : grid0.Coords, EltTy.bits .f32 = 32 ∨ (Rect.block (s := S8x65536x64) S1x4096x64.size (cc0_transform_3 i) (hinb0_3 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8x8192x64 : Shape := ⟨4, ![8, 8, 8192, 64]⟩
abbrev S8x64x256 : Shape := ⟨3, ![8, 64, 256]⟩
abbrev S8x256x64 : Shape := ⟨3, ![8, 256, 64]⟩
abbrev S8x65536x64 : Shape := ⟨3, ![8, 65536, 64]⟩
abbrev S8x65536x256 : Shape := ⟨3, ![8, 65536, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x8x8192x64, .f32⟩
  | .hbm, ⟨1, _⟩ => ⟨S8x64x256, .f32⟩
  | .hbm, ⟨2, _⟩ => ⟨S8x256x64, .f32⟩
  | .hbm, ⟨3, _⟩ => ⟨S8x65536x64, .f32⟩
  | .hbm, ⟨4, _⟩ => ⟨S8x65536x256, .f32⟩
  | .hbm, ⟨5, _⟩ => ⟨S_, .f32⟩
  | .hbm, ⟨6, _⟩ => ⟨S8x65536x256, .f32⟩
  | .hbm, ⟨7, _⟩ => ⟨S8x65536x256, .f32⟩
  | .hbm, ⟨8, _⟩ => ⟨S8x65536x64, .f32⟩
  | .hbm, ⟨9, _⟩ => ⟨S8x8x8192x64, .f32⟩
  | _, _ => ⟨S8x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  shapeCasts_S8x8x8192x64_S8x65536x64 : S8x8x8192x64.ShapeCasts S8x65536x64
  bcast_S_S8x65536x256 : S_.BroadcastsInDim S8x65536x256 (![] : Fin 0 → Fin S8x65536x256.rank)
  shapeCasts_S8x65536x64_S8x8x8192x64 : S8x65536x64.ShapeCasts S8x8x8192x64
  dot_S8x65536x64_S8x64x256_S8x65536x256_2_1_1_2_0_0_wf : DotDims.WF S8x65536x64 S8x64x256 S8x65536x256 [2] [1] [1] [2] [0] [0]
  dot_S8x65536x256_S8x256x64_S8x65536x64_2_1_1_2_0_0_wf : DotDims.WF S8x65536x256 S8x256x64 S8x65536x64 [2] [1] [1] [2] [0] [0]

variable [Facts₀]

def dot_S8x65536x64_S8x64x256_S8x65536x256_2_1_1_2_0_0 : DotDims S8x65536x64 S8x64x256 S8x65536x256 where
  lhsContracting := [2]
  rhsContracting := [1]
  lhsNonContracting := [1]
  rhsNonContracting := [2]
  lhsBatch := [0]
  rhsBatch := [0]
  wf := dot_S8x65536x64_S8x64x256_S8x65536x256_2_1_1_2_0_0_wf
def dot_S8x65536x256_S8x256x64_S8x65536x64_2_1_1_2_0_0 : DotDims S8x65536x256 S8x256x64 S8x65536x64 where
  lhsContracting := [2]
  rhsContracting := [1]
  lhsNonContracting := [1]
  rhsNonContracting := [2]
  lhsBatch := [0]
  rhsBatch := [0]
  wf := dot_S8x65536x256_S8x256x64_S8x65536x64_2_1_1_2_0_0_wf

class Facts : Prop extends Facts₀ where

variable [Facts]
-- ==== Proof.Ffn.lean ====
/-
  The function both programs compute, stated once over literal shapes and independent of either program.

  With the input viewed as `x : [8, 65536, 64]` (batch, token, model dimension) and the two weight stacks
  `w1 : [8, 64, 256]`, `w2 : [8, 256, 64]`, a token's hidden activation in feature `f` is the positive part of the inner
  product of its row with column `f` of its batch's first weight,

      hiddenAct x w1 b t f = max (∑ k, x[b, t, k] · w1[b, k, f]) 0,

  and the result is the hidden row's inner product with column `d` of its batch's second weight,

      ffn x w1 w2 [b, t, d] = ∑ f, hiddenAct x w1 b t f · w2[b, f, d].

  Everything is over the extended reals: the sums are finite sums in a commutative additive monoid, so no ordering
  or grouping of the terms matters, and nothing here needs the entries to be finite.
-/
import Idealize.ShloMosaic.PureOps.Ideal
import Idealize.ShloMosaic.Lib.ValueIdx

noncomputable section

namespace Cert.Ffn

open Idealize.ShloMosaic Idealize.ShloMosaic.ValueIdx

/-- The input viewed per batch as a list of tokens: batch × token × model dimension. -/
abbrev STok : Shape := ⟨3, ![8, 65536, 64]⟩
/-- The first weight stack: batch × model dimension × hidden feature. -/
abbrev SUp : Shape := ⟨3, ![8, 64, 256]⟩
/-- The second weight stack: batch × hidden feature × model dimension. -/
abbrev SDown : Shape := ⟨3, ![8, 256, 64]⟩

/-- The hidden activation of token `t` of batch `b` in feature `f`: the positive part of the token's row against
    column `f` of the batch's first weight. -/
def hiddenAct (x : FVec Ideal STok .f32) (w1 : FVec Ideal SUp .f32) (b : Fin 8) (t : Fin 65536) (f : Fin 256) : EReal :=
  max (∑ k : Fin 64, x (ix3 b t k) * w1 (ix3 b k f)) 0

/-- The feed-forward result: each token's hidden row against the columns of its batch's second weight. -/
def ffn (x : FVec Ideal STok .f32) (w1 : FVec Ideal SUp .f32) (w2 : FVec Ideal SDown .f32) : FVec Ideal STok .f32 :=
  fun i => ∑ f : Fin 256, hiddenAct x w1 (i 0) (i 1) f * w2 (ix3 (i 0) f (i 2))

theorem ffn_apply (x : FVec Ideal STok .f32) (w1 : FVec Ideal SUp .f32) (w2 : FVec Ideal SDown .f32)
    (b : Fin 8) (t : Fin 65536) (d : Fin 64) :
    ffn x w1 w2 (ix3 b t d) = ∑ f : Fin 256, hiddenAct x w1 b t f * w2 (ix3 b f d) := rfl

end Cert.Ffn

end
-- ==== Proof.RefStage.lean ====
/-
  The reference's third stage is the feed-forward function of its first stage.

  Between its two reshapes the reference computes, from the input viewed as [8, 65536, 64]: a batched contraction
  with the first weight stack, the maximum with a broadcast zero, and a batched contraction with the second weight
  stack. Read at an index [b, t, d] the last contraction is a sum over the hidden feature `f` of the second stage at
  [b, t, f] times `w2[b, f, d]`; the second stage there is the maximum of the first contraction at [b, t, f] and the
  zero word's value, which is the real zero; and the first contraction there is the sum over `k` of the viewed input at
  [b, t, k] times `w1[b, k, f]`. That is `Cert.Ffn.ffn` term by term; the only work is to see that the index
  functions the contractions are read through are the coordinate triples above.
-/
import proofs.«132162_j61933428416507_1_alg».proof.Proof.Gen.ReferenceIdeal.Read
import proofs.«132162_j61933428416507_1_alg».proof.Proof.Ffn

noncomputable section

namespace Cert.ReferenceIdeal.RefValue

open Cert.ReferenceIdeal Cert.ReferenceIdeal.Gen Cert.ReferenceIdeal.Read
open Idealize.ShloMosaic Idealize.ShloMosaic.ValueIdx Cert.Ffn

/-- The second contraction, at [b, t, d], reads its left operand at [b, t, f]. -/
theorem left_down (b : Fin 8) (t : Fin 65536) (d : Fin 64) (f : Fin 256) :
    lidx_main_v3 (ix3 b t d) f = ix3 b t f :=
  funext fun a => Fin.ext (by match a with | ⟨0, _⟩ => rfl | ⟨1, _⟩ => rfl | ⟨2, _⟩ => rfl)

/-- The second contraction, at [b, t, d], reads its right operand at [b, f, d]. -/
theorem right_down (b : Fin 8) (t : Fin 65536) (d : Fin 64) (f : Fin 256) :
    ridx_main_v3 (ix3 b t d) f = ix3 b f d :=
  funext fun a => Fin.ext (by match a with | ⟨0, _⟩ => rfl | ⟨1, _⟩ => rfl | ⟨2, _⟩ => rfl)

/-- The first contraction, at [b, t, f], reads its left operand at [b, t, k]. -/
theorem left_up (b : Fin 8) (t : Fin 65536) (f : Fin 256) (k : Fin 64) :
    lidx_main_v1 (ix3 b t f) k = ix3 b t k :=
  funext fun a => Fin.ext (by match a with | ⟨0, _⟩ => rfl | ⟨1, _⟩ => rfl | ⟨2, _⟩ => rfl)

/-- The first contraction, at [b, t, f], reads its right operand at [b, k, f]. -/
theorem right_up (b : Fin 8) (t : Fin 65536) (f : Fin 256) (k : Fin 64) :
    ridx_main_v1 (ix3 b t f) k = ix3 b k f :=
  funext fun a => Fin.ext (by match a with | ⟨0, _⟩ => rfl | ⟨1, _⟩ => rfl | ⟨2, _⟩ => rfl)

/-- The second stage at [b, t, f] is the hidden activation. -/
theorem relu_stage_apply (x0 : FVec Ideal S8x8x8192x64 .f32) (x1 : FVec Ideal S8x64x256 .f32)
    (b : Fin 8) (t : Fin 65536) (f : Fin 256) :
    val_main_v2 (F := Ideal) x0 x1 (ix3 b t f) = hiddenAct (val_main_v0 (F := Ideal) x0) x1 b t f := by
  rw [val_main_v2_apply, val_main_v1_apply, val_main_call0_v0_apply, val_main_call0_cst_apply]
  unfold hiddenAct
  show max _ (Ideal.ofBits .f32 0x00000000#32) = _
  rw [Ideal.ofBits_zero_f32]
  refine congrArg (fun s => max s (0 : EReal)) (Finset.sum_congr rfl fun k _ => ?_)
  rw [left_up, right_up]

/-- The third stage is the feed-forward function of the viewed input and the two weight stacks. -/
theorem down_stage_eq (x0 : FVec Ideal S8x8x8192x64 .f32) (x1 : FVec Ideal S8x64x256 .f32) (x2 : FVec Ideal S8x256x64 .f32) :
    val_main_v3 (F := Ideal) x0 x1 x2 = ffn (val_main_v0 (F := Ideal) x0) x1 x2 := by
  funext i
  obtain ⟨b, t, d, rfl⟩ : ∃ (b : Fin 8) (t : Fin 65536) (d : Fin 64), i = ix3 b t d := ⟨i 0, i 1, i 2, eq_ix3 i⟩
  rw [val_main_v3_apply, ffn_apply]
  refine Finset.sum_congr rfl fun f _ => ?_
  rw [left_down, right_down, relu_stage_apply]

end Cert.ReferenceIdeal.RefValue

end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.LibUnitBlock.lean ====
/-
  A block with a leading axis of extent one, read at coordinates.

  A window's block of a rank-3 array that takes one slab along the first axis has shape [1, A, B]. A body views it
  as the A × B matrix it is, and views its A × B result as a [1, A, B] block again. Row-major, the entry (0, a, b) of
  the block and the entry (a, b) of the matrix sit at the same flat position a·B + b, so each view reads the other
  at the same two coordinates. Stated for every A and B and every element type.
-/
import Idealize.ShloMosaic.Lib.Pipeline.Value
import Idealize.ShloMosaic.Lib.ValueIdx

noncomputable section

namespace Cert.LibUnitBlock

open Idealize.ShloMosaic Idealize.ShloMosaic.ValueIdx

variable {α : Type} {A B : Nat}

/-- Prefixing the coordinate 0 to a pair of coordinates is the triple (0, a, b). -/
theorem cons_zero_ix2 (a : Fin A) (b : Fin B) :
    (Fin.cons (α := fun d => Fin ((Matrix.vecCons 1 ![A, B] : Fin 3 → Nat) d)) ⟨0, Nat.one_pos⟩ (ix2 a b)
      : (⟨3, ![1, A, B]⟩ : Shape).Idx) = ix3 (⟨0, Nat.one_pos⟩ : Fin 1) a b :=
  funext fun d => by match d with | ⟨0, _⟩ => rfl | ⟨1, _⟩ => rfl | ⟨2, _⟩ => rfl

/-- Dropping the first coordinate of the triple (z, a, b) leaves the pair (a, b). -/
theorem tail_ix3 (z : Fin 1) (a : Fin A) (b : Fin B) :
    (fun d : Fin 2 => (ix3 z a b : (⟨3, ![1, A, B]⟩ : Shape).Idx) d.succ) = (ix2 a b : (⟨2, ![A, B]⟩ : Shape).Idx) :=
  funext fun d => by match d with | ⟨0, _⟩ => rfl | ⟨1, _⟩ => rfl

/-- The [1, A, B] block viewed as an A × B matrix reads (a, b) at the block's (0, a, b). -/
theorem matrix_of_block_apply (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 (⟨0, Nat.one_pos⟩ : Fin 1) a b) :=
  (shapeCast_dropUnit_apply ![A, B] v h (ix2 a b)).trans (congrArg v (cons_zero_ix2 a b))

/-- The A × B matrix viewed as a [1, A, B] block reads (z, a, b) at the matrix's (a, b). -/
theorem block_of_matrix_apply (v : (⟨2, ![A, B]⟩ : Shape).Idx → α)
    (h : (⟨2, ![A, B]⟩ : Shape).ShapeCasts ⟨3, ![1, A, B]⟩) (z : Fin 1) (a : Fin A) (b : Fin B) :
    shapeCast ⟨3, ![1, A, B]⟩ v h (ix3 z a b) = v (ix2 a b) :=
  (shapeCast_addUnit_apply ![A, B] v h (ix3 z a b)).trans (congrArg v (tail_ix3 z a b))

end Cert.LibUnitBlock

end
-- ==== Proof.Payload.lean ====
/-
  What the kernel body stores, read at one entry.

  The body loads three blocks — a [1, 4096, 64] slab of tokens `x`, the batch's [1, 64, 256] first weight `u` and its
  [1, 256, 64] second weight `v` —, views each as a matrix, multiplies the tokens by the first weight into a zero
  accumulator, takes the maximum with zero, multiplies by the second weight into a zero accumulator, and stores the
  4096 × 64 product as a [1, 4096, 64] block. Over the extended reals the narrowing casts in between are the
  identity and each product into a zero accumulator is the plain sum of products, so entry (0, r, d) of what is
  stored is

      ∑ f, max (∑ k, x(0, r, k) · u(0, k, f)) 0 · v(0, f, d).
-/
import proofs.«132162_j61933428416507_1_alg».proof.Proof.Gen.KernelIdeal.Skeleton
import proofs.«132162_j61933428416507_1_alg».proof.Proof.LibDotPlain
import proofs.«132162_j61933428416507_1_alg».proof.Proof.LibUnitBlock

noncomputable section

namespace Cert.KernelIdeal.Body

open Cert.KernelIdeal Cert.KernelIdeal.Gen
open Idealize.ShloMosaic Idealize.ShloMosaic.ValueIdx Cert.LibUnitBlock

/-- Entry (0, r, d) of the stored block, from the three loaded blocks. -/
theorem stored_apply (x : Vec Ideal S1x4096x64 .f32) (u : Vec Ideal S1x64x256 .f32) (v : Vec Ideal S1x256x64 .f32)
    (r : Fin 4096) (d : Fin 64) :
    k0_pay1 (F := Ideal) x u v (ix3 (⟨0, Nat.one_pos⟩ : Fin 1) r d)
      = ∑ f : Fin 256, max (∑ k : Fin 64, x (ix3 (⟨0, Nat.one_pos⟩ : Fin 1) r k) * u (ix3 (⟨0, Nat.one_pos⟩ : Fin 1) k f)) 0
          * v (ix3 (⟨0, Nat.one_pos⟩ : Fin 1) f d) := by
  unfold k0_pay1
  refine (block_of_matrix_apply _ _ _ r d).trans ?_
  refine (Cert.LibDot.mm_plain 4096 256 64 _ _ r d).trans ?_
  refine Finset.sum_congr rfl fun f _ => ?_
  show max (matmul (DotDims.plain 4096 64 256) none _ _ (constant (F := Ideal) ⟨2, ![4096, 256]⟩ .f32 0x00000000#32) (ix2 r f))
      (Ideal.ofBits .f32 0x00000000#32) * shapeCast ⟨2, ![256, 64]⟩ v _ (ix2 f d) = _
  rw [Cert.LibDot.mm_plain, Ideal.ofBits_zero_f32, matrix_of_block_apply]
  refine congrArg (fun s => max s (0 : EReal) * v (ix3 (⟨0, Nat.one_pos⟩ : Fin 1) f d)) (Finset.sum_congr rfl fun k _ => ?_)
  show shapeCast ⟨2, ![4096, 64]⟩ x _ (ix2 r k) * shapeCast ⟨2, ![64, 256]⟩ u _ (ix2 k f) = _
  rw [matrix_of_block_apply, matrix_of_block_apply]

end Cert.KernelIdeal.Body

end
-- ==== Proof.Region.lean ====
/-
  The kernel program's result, as a function of its three arguments.

  The program views the input as [8, 65536, 64], runs the body on a grid of 8 × 16 points, and views the region's
  [8, 65536, 64] output as [8, 8, 8192, 64] again. Point (b, s) of the grid is given rows 4096·s … 4096·s + 4095 of
  batch b of the viewed input, the whole of batch b of each weight stack, and writes rows 4096·s … 4096·s + 4095 of
  batch b of the output. A block's entry (0, r, ·) is therefore the array's entry (b, 4096·s + r, ·), and for the
  weights (0, k, f) is (b, k, f). Since a row of the feed-forward function depends only on the same row of the
  tokens and on the batch's weights, what point (b, s) writes back is its own block of `Cert.Ffn.ffn` of the three
  arrays; the 128 blocks tile the output, so the output array ends holding that function, and the program's result is
  its reshape.
-/
import proofs.«132162_j61933428416507_1_alg».proof.Proof.Gen.KernelIdeal.Frame
import proofs.«132162_j61933428416507_1_alg».proof.Proof.Payload
import proofs.«132162_j61933428416507_1_alg».proof.Proof.Ffn
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region

open Cert.KernelIdeal Cert.KernelIdeal.Gen Cert.KernelIdeal.Body
open Idealize.ShloMosaic.ValueIdx Cert.Ffn

variable (m : (ℓ : Loc nD τ sig) → Buf (Elt Ideal) ℓ) (ρ : Dev nD → PrngReg)

/-- The viewed input as the region finds it. -/
abbrev tokens (c : Dev nD) : FVec Ideal STok .f32 := V m c main_v0
/-- The first weight stack as the region finds it. -/
abbrev up (c : Dev nD) : FVec Ideal SUp .f32 := V m c main_arg1
/-- The second weight stack as the region finds it. -/
abbrev down (c : Dev nD) : FVec Ideal SDown .f32 := V m c main_arg2

theorem hz : (![0, 0, 0] : Fin 3 → Nat) = fun _ => 0 := funext fun a => by fin_cases a <;> rfl

/-- The block indices over the grid: the token window moves with the output window, on the batch axis and on the
    row axis; both weight windows follow the output's batch and stay at zero elsewhere; the output's batch index is
    below 8 and its row-block index below 16. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 7
    ∧ win0_3.index t (1 : Fin 3) ≤ 15
    ∧ win0_3.index t (2 : Fin 3) = 0 :=
  (by decide +kernel : ∀ t : Fin grid0.N, _)

/-- Every (batch, row block) pair is some point's. -/
theorem idx_onto : ∀ (q0 : Fin 8) (q1 : Fin 16), ∃ t : Fin cfg0.N, win0_3.index t = ![q0.val, q1.val, 0] :=
  (by decide +kernel : ∀ (q0 : Fin 8) (q1 : Fin 16), ∃ t : Fin grid0.N, win0_3.index t = ![q0.val, q1.val, 0])

/-- The token block's entry (0, r, k) is the viewed input's entry (b, s, k), where b is the point's batch and s its
    row block's r-th row. -/
theorem tokens_block (c : Dev nD) (t : Fin cfg0.N) (r : Fin 4096) (k : Fin 64) (b : Fin 8) (s : Fin 65536)
    (hb : b.val = win0_3.index t (0 : Fin 3)) (hs : s.val = win0_3.index t (1 : Fin 3) * 4096 + r.val) :
    (iblk m c 0 t : Vec Ideal S1x4096x64 .f32) (ix3 (⟨0, Nat.one_pos⟩ : Fin 1) r k) = tokens m c (ix3 b s k) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = b.val; omega
  | ⟨1, _⟩ => show win0_0.index t (1 : Fin 3) * 4096 + 1 * r.val = s.val; omega
  | ⟨2, _⟩ => show win0_0.index t (2 : Fin 3) * 64 + 1 * k.val = k.val; omega

/-- The first weight's block entry (0, k, f) is the stack's entry (b, k, f). -/
theorem up_block (c : Dev nD) (t : Fin cfg0.N) (k : Fin 64) (f : Fin 256) (b : Fin 8)
    (hb : b.val = win0_3.index t (0 : Fin 3)) :
    (iblk m c 1 t : Vec Ideal S1x64x256 .f32) (ix3 (⟨0, Nat.one_pos⟩ : Fin 1) k f) = up m c (ix3 b k f) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = b.val; omega
  | ⟨1, _⟩ => show win0_1.index t (1 : Fin 3) * 64 + 1 * k.val = k.val; omega
  | ⟨2, _⟩ => show win0_1.index t (2 : Fin 3) * 256 + 1 * f.val = f.val; omega

/-- The second weight's block entry (0, f, d) is the stack's entry (b, f, d). -/
theorem down_block (c : Dev nD) (t : Fin cfg0.N) (f : Fin 256) (d : Fin 64) (b : Fin 8)
    (hb : b.val = win0_3.index t (0 : Fin 3)) :
    (iblk m c 2 t : Vec Ideal S1x256x64 .f32) (ix3 (⟨0, Nat.one_pos⟩ : Fin 1) f d) = down m c (ix3 b f d) := by
  obtain ⟨-, -, -, -, -, -, e0, e1, e2, -⟩ := idx_facts t
  unfold iblk
  rw [View.read_apply]
  show V m c main_arg2 _ = V m c main_arg2 _
  congr 1
  funext a
  apply Fin.ext
  match a with
  | ⟨0, _⟩ => show win0_2.index t (0 : Fin 3) * 1 + 1 * 0 = b.val; omega
  | ⟨1, _⟩ => show win0_2.index t (1 : Fin 3) * 256 + 1 * f.val = f.val; omega
  | ⟨2, _⟩ => show win0_2.index t (2 : Fin 3) * 64 + 1 * d.val = d.val; omega

/-- WHAT POINT `t` WRITES BACK is its block of the feed-forward function of the three arrays as the region finds them:
    entry (0, r, d) of the stored block is the sum over the hidden features of the row's activation against the batch's
    second weight, every block entry read at the array entry it is. -/
theorem flushed_eq (c : Dev nD) (t : Fin cfg0.N) :
    (dats m 0 c).flushed 3 t = ((cfg0.win 3).blk t).view.read (Elt Ideal) (ffn (tokens m c) (up m c) (down m c)) := by
  show (cfg0.win 3).cut (grid0.coords t) ((dats m 0 c).after 3 t) = _
  rw [after0_3]
  unfold out0_3
  rw [View.canon_unit_zero hz]
  simp only [View.ld_unit_zero (S := S1x4096x64) hz, View.ld_unit_zero (S := S1x64x256) hz, View.ld_unit_zero (S := S1x256x64) hz]
  obtain ⟨-, -, -, -, -, -, -, -, -, l0, l1, e2⟩ := idx_facts t
  funext j
  obtain ⟨z, r, d, rfl⟩ : ∃ (z : Fin 1) (r : Fin 4096) (d : Fin 64), j = ix3 z r d := ⟨j 0, j 1, j 2, eq_ix3 j⟩
  obtain rfl : z = ⟨0, Nat.one_pos⟩ := Fin.ext (by have := z.isLt; omega)
  have hb : win0_3.index t (0 : Fin 3) < 8 := by omega
  have hs : win0_3.index t (1 : Fin 3) * 4096 + r.val < 65536 := by have := r.isLt; omega
  have hemb : ((cfg0.win 3).blk t).view.emb (ix3 (⟨0, Nat.one_pos⟩ : Fin 1) r d)
      = (ix3 (⟨win0_3.index t (0 : Fin 3), hb⟩ : Fin 8) (⟨win0_3.index t (1 : Fin 3) * 4096 + r.val, hs⟩ : Fin 65536) d : STok.Idx) := by
    funext a
    apply Fin.ext
    match a with
    | ⟨0, _⟩ => show win0_3.index t (0 : Fin 3) * 1 + 1 * 0 = win0_3.index t (0 : Fin 3); omega
    | ⟨1, _⟩ => show win0_3.index t (1 : Fin 3) * 4096 + 1 * r.val = win0_3.index t (1 : Fin 3) * 4096 + r.val; omega
    | ⟨2, _⟩ => show win0_3.index t (2 : Fin 3) * 64 + 1 * d.val = d.val; omega
  show k0_pay1 (F := Ideal) (iblk m c 0 t) (iblk m c 1 t) (iblk m c 2 t) (ix3 (⟨0, Nat.one_pos⟩ : Fin 1) r d)
    = ffn (tokens m c) (up m c) (down m c) (((cfg0.win 3).blk t).view.emb (ix3 (⟨0, Nat.one_pos⟩ : Fin 1) r d))
  refine (stored_apply (iblk m c 0 t) (iblk m c 1 t) (iblk m c 2 t) r d).trans ?_
  refine Eq.trans ?_ (congrArg (ffn (tokens m c) (up m c) (down m c)) hemb).symm
  rw [ffn_apply]
  refine Finset.sum_congr rfl fun f _ => ?_
  unfold hiddenAct
  rw [down_block m c t f d ⟨win0_3.index t (0 : Fin 3), hb⟩ rfl]
  refine congrArg (fun s => max s (0 : EReal) * down m c (ix3 (⟨win0_3.index t (0 : Fin 3), hb⟩ : Fin 8) f d)) (Finset.sum_congr rfl fun k _ => ?_)
  rw [tokens_block m c t r k ⟨win0_3.index t (0 : Fin 3), hb⟩ ⟨win0_3.index t (1 : Fin 3) * 4096 + r.val, hs⟩ rfl rfl,
    up_block m c t k f ⟨win0_3.index t (0 : Fin 3), hb⟩ rfl]

/-- An index of the output array is in point `t`'s block iff each coordinate is in the block's range on its axis. -/
theorem mem_blk (t : Fin cfg0.N) (i : S8x65536x64.Idx) :
    i ∈ ((cfg0.win 3).blk t).view.set ↔ ∀ a : Fin 3, win0_3.index t a * S1x4096x64.size a ≤ (i a).val
      ∧ (i a).val < win0_3.index t a * S1x4096x64.size a + S1x4096x64.size a := by
  show i ∈ ((View.whole main_v1).slice (win0_3.rect t)).set ↔ _
  rw [View.set_slice_whole, Rect.mem_set_unit]
  exact Iff.rfl

/-- The 128 blocks tile the output: entry (b, s, d) lies in the block of the point with batch b and row block s / 4096. -/
theorem cover (i : S8x65536x64.Idx) :
    ∃ t : Fin cfg0.N, (cfg0.win 3).flush t = true ∧ i ∈ ((cfg0.win 3).blk t).view.set := by
  have h0 : (i 0).val < 8 := (i 0).isLt
  have h1 : (i 1).val < 65536 := (i 1).isLt
  have h2 : (i 2).val < 64 := (i 2).isLt
  obtain ⟨t, ht⟩ := idx_onto ⟨(i 0).val, h0⟩ ⟨(i 1).val / 4096, by omega⟩
  have q0 : win0_3.index t (0 : Fin 3) = (i 0).val := congrFun ht 0
  have q1 : win0_3.index t (1 : Fin 3) = (i 1).val / 4096 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 64 ≤ (i 2).val ∧ (i 2).val < win0_3.index t (2 : Fin 3) * 64 + 64; omega

/-- THE OUTPUT ARRAY after the region is the feed-forward function of the three arrays as the region finds them. -/
theorem region_out (c : Dev nD) : (dats m 0 c).arrAt 3 cfg0.N = ffn (tokens m c) (up m c) (down m c) :=
  (dats m 0 c).arrAt_eq_of_cover 3 (ffn (tokens m c) (up m c) (down m c)) (fun t _ => flushed_eq m c t) cover

/-- The region finds the viewed input at the reshape of the launched input. -/
theorem tokens_eq (c : Dev nD) :
    tokens m c = shapeCast S8x65536x64 (m ((c : Thread nD τ).loc main_arg0)) shapeCasts_S8x8x8192x64_S8x65536x64 := by
  show StableHlo.after hostOps0 (fun b => m (c, b)) (Proc.devRef .tc main_v0) = _
  after_results
  rfl

/-- The program's result as a function of its arguments: the reshape of the feed-forward function of the reshaped
    input and the two weight stacks. -/
abbrev result (c : Dev nD) : FVec Ideal S8x8x8192x64 .f32 :=
  shapeCast S8x8x8192x64
    (ffn (shapeCast S8x65536x64 (m ((c : Thread nD τ).loc main_arg0)) shapeCasts_S8x8x8192x64_S8x65536x64)
      (m ((c : Thread nD τ).loc main_arg1)) (m ((c : Thread nD τ).loc main_arg2)))
    shapeCasts_S8x65536x64_S8x8x8192x64

/-- After the reshape that follows the region, the result buffer holds `result`: the reshape reads the region's
    output array, which is the feed-forward function of the arrays the region found, and those are the reshaped
    input and the launched weights. -/
theorem result_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [(Pipeline.withArrays_arr spec0 launch0.win.arr_inj c _ _ 3).trans (region_out m c)]
  show shapeCast S8x8x8192x64 (ffn (tokens m c) (V m c main_arg1) (V m c main_arg2)) shapeCasts_S8x65536x64_S8x8x8192x64 = _
  rw [tokens_eq, V_main_arg1, V_main_arg2]

/-- THE RUN, READ: every weakly fair execution of the program ends with the result buffer at `result` and the three
    arguments as launched. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Region

end
-- ==== Proof.lean ====
/-
  A two-layer feed-forward block applied per batch: the tiled kernel against the batched reference.

  Both programs view the input `x : [8, 8, 8192, 64]` as `[8, 65536, 64]` — eight batches of 65536 tokens of
  dimension 64 — and view their `[8, 65536, 64]` result as `[8, 8, 8192, 64]` again. In between, with the weight
  stacks `w1 : [8, 64, 256]` and `w2 : [8, 256, 64]`, both compute

      out[b, t, d] = ∑ f, max (∑ k, x[b, t, k] · w1[b, k, f]) 0 · w2[b, f, d]          (`Cert.Ffn.ffn`).

  The reference does it with two batched contractions around a maximum with zero (Proof/RefStage.lean reads them
  index by index). The kernel does it on a grid of 8 × 16 points, point (b, s) multiplying rows 4096·s … 4096·s + 4095
  of batch b by the batch's two weights, each product into a zero accumulator, with narrowing casts in between that
  are the identity over the extended reals (Proof/Payload.lean reads the stored block at an entry; Proof/Region.lean
  reads each block entry at the array entry it is, shows that every point writes back its own block of `ffn`, that the
  128 blocks tile the output, and carries the array through the final reshape).

  A row of the result depends only on the same row of the tokens and on the batch's weights, so the tiling changes
  nothing; and the two sides are the same finite sums of the same products, so no law of the extended reals beyond
  the sums being sums is used and the finiteness precondition is never opened. The kernel's idealization rewrote
  nothing, so there is nothing to preserve.
-/
import proofs.«132162_j61933428416507_1_alg».proof.Defs
import proofs.«132162_j61933428416507_1_alg».proof.Proof.Gen.Kernel
import proofs.«132162_j61933428416507_1_alg».proof.Proof.Gen.Kernel.Frame
import proofs.«132162_j61933428416507_1_alg».proof.Proof.Gen.KernelIdeal
import proofs.«132162_j61933428416507_1_alg».proof.Proof.Gen.KernelIdeal.Frame
import proofs.«132162_j61933428416507_1_alg».proof.Proof.Gen.ReferenceIdeal
import proofs.«132162_j61933428416507_1_alg».proof.Proof.Gen.Pre_finite_inputs
import proofs.«132162_j61933428416507_1_alg».proof.Proof.Gen.ReferenceIdeal.Run
import proofs.«132162_j61933428416507_1_alg».proof.Proof.Gen.ReferenceIdeal.Read
import proofs.«132162_j61933428416507_1_alg».proof.Proof.RefStage
import proofs.«132162_j61933428416507_1_alg».proof.Proof.Region

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel's result buffer ends at the reshape of `ffn` of the
    reshaped input and the weights, and so does the reference's: its third stage is `ffn` of its first, which is the
    same reshape of the same input. -/
theorem algebraic : Cert.algebraic_KernelIdeal_ReferenceIdeal := by
  intro m ρ m' ρ' _ hagree
  refine ⟨fun c => Cert.KernelIdeal.Region.result m c, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v4_eq]
  unfold Cert.ReferenceIdeal.Read.val_main_v4
  rw [Cert.ReferenceIdeal.RefValue.down_stage_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
